-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S8x1024 : Shape := ⟨2, ![8, 1024]⟩
abbrev S8x1024x1024 : Shape := ⟨3, ![8, 1024, 1024]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S8x1024 : S_.BroadcastsInDim S8x1024 (![] : Fin 0 → Fin S8x1024.rank)
  reducesTo_S8x1024_S_d0_1 : S8x1024.ReducesTo [0, 1] S_
  bcast_S_S8x1024x1024 : S_.BroadcastsInDim S8x1024x1024 (![] : Fin 0 → Fin S8x1024x1024.rank)
  reducesTo_S8x1024x1024_S_d0_1_2 : S8x1024x1024.ReducesTo [0, 1, 2] S_

variable [Facts]

def fn_part1 {F : FTy → Type} [FloatOps F] (main_v13 : IVec S_ 1) (main_v16 : IVec S8x1024 1) : IVec S_ 1 :=
  let main_c_5 : IVec S_ 1 := constantI S_ 1 1#1
  let main_v17 : IVec S_ 1 := (fun x v => Host.reduce IntOp.andi x v reducesTo_S8x1024_S_d0_1 h_S_) main_v16 main_c_5
  let main_v18 : IVec S_ 1 := andi main_v13 main_v17
  main_v18

def fn {F : FTy → Type} [FloatOps F] (main_arg0 : FVec F S65536x1024 .f32) (main_arg1 : FVec F S8x1024 .f32) (main_arg2 : FVec F S8x1024x1024 .f32) (main_arg3 : FVec F S8x1024 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S8x1024 .f32 := Host.absf main_arg1
  let main_cst_0 : FVec F S_ .f32 := constant S_ .f32 0x7F800000#32
  let main_v5 : FVec F S8x1024 .f32 := broadcastInDim S8x1024 ![] bcast_S_S8x1024 main_cst_0
  let main_v6 : IVec S8x1024 1 := cmpf .olt main_v4 main_v5
  let main_c_1 : IVec S_ 1 := constantI S_ 1 1#1
  let main_v7 : IVec S_ 1 := (fun x v => Host.reduce IntOp.andi x v reducesTo_S8x1024_S_d0_1 h_S_) main_v6 main_c_1
  let main_v8 : IVec S_ 1 := andi main_v3 main_v7
  let main_v9 : FVec F S8x1024x1024 .f32 := Host.absf main_arg2
  let main_cst_2 : FVec F S_ .f32 := constant S_ .f32 0x7F800000#32
  let main_v10 : FVec F S8x1024x1024 .f32 := broadcastInDim S8x1024x1024 ![] bcast_S_S8x1024x1024 main_cst_2
  let main_v11 : IVec S8x1024x1024 1 := cmpf .olt main_v9 main_v10
  let main_c_3 : IVec S_ 1 := constantI S_ 1 1#1
  let main_v12 : IVec S_ 1 := (fun x v => Host.reduce IntOp.andi x v reducesTo_S8x1024x1024_S_d0_1_2 h_S_) main_v11 main_c_3
  let main_v13 : IVec S_ 1 := andi main_v8 main_v12
  let main_v14 : FVec F S8x1024 .f32 := Host.absf main_arg3
  let main_cst_4 : FVec F S_ .f32 := constant S_ .f32 0x7F800000#32
  let main_v15 : FVec F S8x1024 .f32 := broadcastInDim S8x1024 ![] bcast_S_S8x1024 main_cst_4
  let main_v16 : IVec S8x1024 1 := cmpf .olt main_v14 main_v15
  fn_part1 (F := F) main_v13 main_v16
-- ==== Kernel.lean ====
abbrev S65536x1024 : Shape := ⟨2, ![65536, 1024]⟩
abbrev S8x1024 : Shape := ⟨2, ![8, 1024]⟩
abbrev S8x1024x1024 : Shape := ⟨3, ![8, 1024, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S512x1024 : Shape := ⟨2, ![512, 1024]⟩

abbrev nBuf : Space → Nat
  | .hbm => 11
  | .vmem => 6
  | .smem => 0
  | _ => 0

abbrev bufTy : (tb : Table) → Fin (tcTables nBuf tb) → BufTy
  | .hbm, ⟨0, _⟩ => ⟨S65536x1024, .f32⟩
  | .hbm, ⟨1, _⟩ => ⟨S8x1024, .f32⟩
  | .hbm, ⟨2, _⟩ => ⟨S8x1024x1024, .f32⟩
  | .hbm, ⟨3, _⟩ => ⟨S8x1024, .f32⟩
  | .hbm, ⟨4, _⟩ => ⟨S1x1024x1024, .f32⟩
  | .hbm, ⟨5, _⟩ => ⟨S1024x1024, .f32⟩
  | .hbm, ⟨6, _⟩ => ⟨S1x1024, .f32⟩
  | .hbm, ⟨7, _⟩ => ⟨S1024, .f32⟩
  | .hbm, ⟨8, _⟩ => ⟨S1024x1024, .f32⟩
  | .hbm, ⟨9, _⟩ => ⟨S1x1024, .f32⟩
  | .hbm, ⟨10, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S8x1024x1024_S1x1024x1024_0_0_0 : S8x1024x1024.Slices ![0, 0, 0] S1x1024x1024
  shapeCasts_S1x1024x1024_S1024x1024 : S1x1024x1024.ShapeCasts S1024x1024
  slices_S8x1024_S1x1024_0_0 : S8x1024.Slices ![0, 0] S1x1024
  shapeCasts_S1x1024_S1024 : S1x1024.ShapeCasts S1024
  transposes_S1024x1024_S1024x1024_1_0 : S1024x1024.Transposes [1, 0] S1024x1024
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S65536x1024.size a
  hwx0_0 : ∀ i : grid0.Coords, EltTy.bits .f32 = 32 ∨ (Rect.block (s := S65536x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S65536x1024.size a
  hwx0_3 : ∀ i : grid0.Coords, EltTy.bits .f32 = 32 ∨ (Rect.block (s := S65536x1024) S512x1024.size (cc0_transform_3 i) (hinb0_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S65536x1024 : Shape := ⟨2, ![65536, 1024]⟩
abbrev S8x1024 : Shape := ⟨2, ![8, 1024]⟩
abbrev S8x1024x1024 : Shape := ⟨3, ![8, 1024, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩

abbrev nBuf : Space → Nat
  | .hbm => 12
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S8x1024, .f32⟩
  | .hbm, ⟨2, _⟩ => ⟨S8x1024x1024, .f32⟩
  | .hbm, ⟨3, _⟩ => ⟨S8x1024, .f32⟩
  | .hbm, ⟨4, _⟩ => ⟨S1x1024x1024, .f32⟩
  | .hbm, ⟨5, _⟩ => ⟨S1024x1024, .f32⟩
  | .hbm, ⟨6, _⟩ => ⟨S65536x1024, .f32⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S65536x1024, .f32⟩
  | .hbm, ⟨11, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  slices_S8x1024x1024_S1x1024x1024_0_0_0 : S8x1024x1024.Slices ![0, 0, 0] S1x1024x1024
  shapeCasts_S1x1024x1024_S1024x1024 : S1x1024x1024.ShapeCasts S1024x1024
  slices_S8x1024_S1x1024_0_0 : S8x1024.Slices ![0, 0] S1x1024
  shapeCasts_S1x1024_S1024 : S1x1024.ShapeCasts S1024
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)
  dot_S65536x1024_S1024x1024_S65536x1024_1_1_0_0_n_n_wf : DotDims.WF S65536x1024 S1024x1024 S65536x1024 [1] [1] [0] [0] [] []

variable [Facts₀]

def dot_S65536x1024_S1024x1024_S65536x1024_1_1_0_0_n_n : DotDims S65536x1024 S1024x1024 S65536x1024 where
  lhsContracting := [1]
  rhsContracting := [1]
  lhsNonContracting := [0]
  rhsNonContracting := [0]
  lhsBatch := []
  rhsBatch := []
  wf := dot_S65536x1024_S1024x1024_S65536x1024_1_1_0_0_n_n_wf

class Facts : Prop extends Facts₀ where

variable [Facts]
-- ==== Proof.LibPlainDot.lean ====
/-
  A plain matrix product `[M, K] × [K, N] → [M, N]` read at one element, at the ideal values, at any extents.

  Whether it is a kernel's `tpu.matmul` into a zero accumulator or a host program's `dot_general`, with the left
  operand contracted along its second axis and the right one along its first and no batch axis, the element
  `(p, q)` of the product is `∑ k, lhs (p, k) · rhs (k, q)` on the extended reals, `k` running over the `K`
  positions of the contracted axis. The dimension numbers enter through equations on their lists, so that a
  program's own record (whose lists are literals) supplies each by `rfl`.
-/
import Idealize.ShloMosaic.Lib.ValueIdx
import Idealize.ShloMosaic.PureOps.Ideal.Laws

open scoped BigOperators

namespace Idealize.ShloMosaic.PlainDot

open Idealize.ShloMosaic Idealize.ShloMosaic.ValueIdx

variable {M K N : Nat} (d : DotDims ⟨2, ![M, K]⟩ ⟨2, ![K, N]⟩ ⟨2, ![M, N]⟩)

/-- Among equal positions an index has equal coordinates (the positions here are sums of list lengths). -/
private theorem val_congr {s : Shape} (j : s.Idx) (a b : Nat) (ha : a < s.rank) (hb : b < s.rank) (h : a = b) :
    (j ⟨a, ha⟩).val = (j ⟨b, hb⟩).val := by subst h; rfl

/-- The left operand's row is the result's row. -/
theorem lhs_row (hlb : d.lhsBatch = []) (hln : d.lhsNonContracting = [0]) (j : (⟨2, ![M, N]⟩ : Shape).Idx)
    (k : d.contr.Idx) : (d.lhsIdx j k 0).val = (j 0).val := by
  unfold DotDims.lhsIdx
  rw [dif_neg (by rw [hlb]; exact List.not_mem_nil),
    dif_pos (show (0 : Fin 2) ∈ d.lhsNonContracting by rw [hln]; exact List.mem_singleton.mpr rfl)]
  simp only [Fin.val_cast]
  exact val_congr j _ _ _ _ (by simp [hlb, hln])

/-- The left operand's column is the contraction position. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the contraction position. -/
theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hlb : d.lhsBatch = []) (hrb : d.rhsBatch = []) (hln : d.lhsNonContracting = [0])
    (hrn : d.rhsNonContracting = [1]) (j : (⟨2, ![M, N]⟩ : Shape).Idx) (k : d.contr.Idx) :
    (d.rhsIdx j k 1).val = (j 1).val := by
  unfold DotDims.rhsIdx
  rw [dif_neg (by rw [hrb]; exact List.not_mem_nil),
    dif_pos (show (1 : Fin 2) ∈ d.rhsNonContracting by rw [hrn]; exact List.mem_singleton.mpr rfl)]
  simp only [Fin.val_cast]
  exact val_congr j _ _ _ _ (by simp [hlb, hln, hrn])

section Sum

variable (hlb : d.lhsBatch = []) (hrb : d.rhsBatch = []) (hln : d.lhsNonContracting = [0])
  (hrn : d.rhsNonContracting = [1]) (hlc : d.lhsContracting = [1]) (hrc : d.rhsContracting = [0])
  (hr : d.contr.rank = 1) (hs : d.contr.size ⟨0, by omega⟩ = K)

include hlb hrb hln hrn hlc hrc hr hs

/-- The contraction's sum, its index set re-indexed by the contracted axis's positions. -/
theorem sum_contr (lhs : (⟨2, ![M, K]⟩ : Shape).Idx → EReal) (rhs : (⟨2, ![K, N]⟩ : Shape).Idx → EReal) (p : Fin M)
    (q : Fin N) :
    ∑ k : d.contr.Idx, lhs (d.lhsIdx (ix2 p q) k) * rhs (d.rhsIdx (ix2 p q) k)
      = ∑ k : Fin K, lhs (ix2 p k) * rhs (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := by
    funext a; refine Fin.ext ?_
    match a with
    | ⟨0, _⟩ => exact lhs_row d hlb hln _ _
    | ⟨1, _⟩ => exact (lhs_col d hlc _ _).trans hk
  have er : d.rhsIdx (ix2 p q) ((contrEquiv1 d K hr hs).symm k) = ix2 k q := by
    funext a; refine Fin.ext ?_
    match a with
    | ⟨0, _⟩ => exact (rhs_row d hrc _ _).trans hk
    | ⟨1, _⟩ => exact rhs_col d hlb hrb hln hrn _ _
  rw [el, er]

/-- A kernel's `tpu.matmul` into the zero splat, at `(p, q)`. -/
theorem matmul_zero_apply {φ₁ φ₂ : FTy} (prec : Option ContractPrecision) (lhs : FVec Ideal ⟨2, ![M, K]⟩ φ₁)
    (rhs : FVec Ideal ⟨2, ![K, N]⟩ φ₂) (p : Fin M) (q : Fin N) :
    matmul d prec lhs rhs (constant ⟨2, ![M, N]⟩ .f32 0x00000000#32) (ix2 p q)
      = ∑ k : Fin K, lhs (ix2 p k) * rhs (ix2 k q) := by
  show FloatOps.matmul d prec lhs rhs (constant ⟨2, ![M, N]⟩ .f32 0x00000000#32) (ix2 p q) = _
  rw [Ideal.matmul_constant_zero_apply]
  exact sum_contr d hlb hrb hln hrn hlc hrc hr hs lhs rhs p q

/-- A host program's `dot_general`, at `(p, q)`. -/
theorem dotGeneral_apply {φ₁ φ₂ : FTy} (prec : Option ContractPrecision) (lhs : FVec Ideal ⟨2, ![M, K]⟩ φ₁)
    (rhs : FVec Ideal ⟨2, ![K, N]⟩ φ₂) (p : Fin M) (q : Fin N) :
    Host.dotGeneral d prec lhs rhs (ix2 p q) = ∑ k : Fin K, lhs (ix2 p k) * rhs (ix2 k q) := by
  show FloatOps.dotGeneral d prec .single lhs rhs (ix2 p q) = _
  rw [Ideal.dotGeneral_apply]
  exact sum_contr d hlb hrb hln hrn hlc hrc hr hs lhs rhs p q

end Sum

end Idealize.ShloMosaic.PlainDot
-- ==== Proof.Body.lean ====
/-
  What the kernel's body stores, read at one element.

  On a block of 512 rows of `x`, the whole transposed weight `Wt : [1024, 1024]` (input feature first) and the bias row
  `[1, 1024]`, the body narrows both matrix operands, multiplies them into a zero accumulator, and adds the bias row
  broadcast down the 512 rows. At the ideal values narrowing is the identity and the product into zero is the plain
  sum, so the element at local row `r`, column `q` is `∑ k, xblk[r, k] · Wt[k, q]  +  brow[0, q]`.
-/
import proofs.«149108_j240518168737_1_alg».proof.Proof.Gen.KernelIdeal.Skeleton
import proofs.«149108_j240518168737_1_alg».proof.Proof.LibPlainDot
import Idealize.ShloMosaic.Lib.Pipeline.Value
import Idealize.ShloMosaic.Lib.ValueIdx

noncomputable section

open scoped BigOperators

namespace Cert.KernelIdeal.Dense

open Cert.KernelIdeal Cert.KernelIdeal.Gen Idealize.ShloMosaic Idealize.ShloMosaic.ValueIdx

/-- The bias row, cast to its own shape twice and broadcast down 512 rows, read at `(r, q)`, is the row's entry `q`. -/
theorem bias_apply (brow : FVec Ideal S1x1024 .f32) (h1 h2 : S1x1024.ShapeCasts S1x1024) (hb : S1x1024.Broadcasts S512x1024)
    (r : Fin 512) (q : Fin 1024) :
    broadcastTo S512x1024 (shapeCast S1x1024 (shapeCast S1x1024 brow h1) h2) hb (ix2 r q) = brow (ix2 (0 : Fin 1) q) := by
  rw [shapeCast_self, shapeCast_self]
  exact broadcastTo_apply brow hb (ix2 r q) (ix2 (0 : Fin 1) q) (fun a => match a with
    | ⟨0, _⟩ => by
      show (0 : Nat) = if (1 : Nat) = 1 then 0 else _
      rw [if_pos rfl]
    | ⟨1, _⟩ => by
      show q.val = if (1024 : Nat) = 1 then 0 else q.val
      rw [if_neg (by decide)])

/-- The product of the narrowed block and the narrowed weight into the zero accumulator, read at `(r, q)`, is the sum
    over the 1024 input features. -/
theorem product_apply (xblk : FVec Ideal S512x1024 .f32) (wt : FVec Ideal S1024x1024 .f32)
    (hs : S1024x1024.ShapeCasts S1024x1024) (hlt : FTy.bits .bf16 < FTy.bits .f32) (r : Fin 512) (q : Fin 1024) :
    matmul dot_S512x1024_S1024x1024_S512x1024_1_0_0_1_n_n none (truncf .bf16 xblk hlt)
        (truncf .bf16 (shapeCast S1024x1024 wt hs) hlt) (constant S512x1024 .f32 0x00000000#32) (ix2 r q)
      = ∑ k : Fin 1024, xblk (ix2 r k) * wt (ix2 k q) := by
  rw [shapeCast_self]
  exact PlainDot.matmul_zero_apply dot_S512x1024_S1024x1024_S512x1024_1_0_0_1_n_n rfl rfl rfl rfl rfl rfl rfl rfl none
    (truncf .bf16 xblk hlt) (truncf .bf16 wt hlt) r q

/-- The stored value at local `(r, q)`. -/
theorem payload_apply (xblk : FVec Ideal S512x1024 .f32) (wt : FVec Ideal S1024x1024 .f32) (brow : FVec Ideal S1x1024 .f32)
    (r : Fin 512) (q : Fin 1024) :
    k0_pay1 (F := Ideal) xblk wt brow (ix2 r q)
      = (∑ k : Fin 1024, xblk (ix2 r k) * wt (ix2 k q)) + brow (ix2 (0 : Fin 1) q) :=
  congrArg₂ (· + ·)
    (product_apply xblk wt shapeCasts_S1024x1024_S1024x1024 bitsLt_bf16_f32 r q)
    (bias_apply brow shapeCasts_S1x1024_S1x1024 shapeCasts_S1x1024_S1x1024 broadcasts_S1x1024_S512x1024 r q)

end Cert.KernelIdeal.Dense

end
-- ==== Proof.Prefix.lean ====
/-
  What the region finds in the two arrays the host operations prepare before it.

  Before the kernel runs, the host slices adaptor 0 out of `W`, drops the unit axis and TRANSPOSES the matrix, so that
  the kernel's weight operand is `Wt[k, o] = W[0, o, k]` (input feature first); and it slices adaptor 0 out of `b` and
  re-lays the 1024 entries as one row, `brow[0, o] = b[0, o]`.
-/
import proofs.«149108_j240518168737_1_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.Dense

open Cert.KernelIdeal Cert.KernelIdeal.Gen Idealize.ShloMosaic Idealize.ShloMosaic.TcCoe Idealize.SL.Sem
open Idealize.ShloMosaic.ValueIdx Idealize.ShloMosaic.StableHlo

/-- The slice of adaptor 0, without its unit axis and transposed, read at `(k, o)`, is `W[0, o, k]`. -/
theorem transposed_slice_apply (W : FVec Ideal S8x1024x1024 .f32) (hs : S8x1024x1024.Slices ![0, 0, 0] S1x1024x1024)
    (hc : S1x1024x1024.ShapeCasts S1024x1024) (ht : S1024x1024.Transposes [1, 0] S1024x1024) (k o : Fin 1024) :
    transpose S1024x1024 [1, 0] (shapeCast S1024x1024 (extractStridedSlice S1x1024x1024 ![0, 0, 0] W hs) hc) ht (ix2 k o)
      = W (ix3 (0 : Fin 8) o k) := by
  refine (transpose_apply [1, 0] _ ht (ix2 k o) (ix2 o k) (fun b => match b with
    | ⟨0, _⟩ => rfl
    | ⟨1, _⟩ => rfl)).trans ?_
  refine (shapeCast_apply _ hc (ix2 o k) (ix3 (0 : Fin 1) o k) (by
    rewrite [Shape.rowMajor_val_three, Shape.rowMajor_val_two]
    show (0 * 1024 + o.val) * 1024 + k.val = o.val * 1024 + k.val
    omega)).trans ?_
  exact extractStridedSlice_apply ![0, 0, 0] W hs (ix3 (0 : Fin 1) o k) (ix3 (0 : Fin 8) o k) (fun a => match a with
    | ⟨0, _⟩ => by show (0 : Nat) = 0 + 0; rfl
    | ⟨1, _⟩ => by show o.val = 0 + o.val; omega
    | ⟨2, _⟩ => by show k.val = 0 + k.val; omega)

/-- The slice of adaptor 0's bias, flattened and re-laid as one row, read at `(0, o)`, is `b[0, o]`. -/
theorem row_slice_apply (b : FVec Ideal S8x1024 .f32) (hs : S8x1024.Slices ![0, 0] S1x1024) (hc : S1x1024.ShapeCasts S1024)
    (hc' : S1024.ShapeCasts S1x1024) (o : Fin 1024) :
    shapeCast S1x1024 (shapeCast S1024 (extractStridedSlice S1x1024 ![0, 0] b hs) hc) hc' (ix2 (0 : Fin 1) o)
      = b (ix2 (0 : Fin 8) o) := by
  rw [shapeCast_shapeCast]
  exact extractStridedSlice_apply ![0, 0] b hs (ix2 (0 : Fin 1) o) (ix2 (0 : Fin 8) o) (fun a => match a with
    | ⟨0, _⟩ => by show (0 : Nat) = 0 + 0; rfl
    | ⟨1, _⟩ => by show o.val = 0 + o.val; omega)

variable (m : (ℓ : Loc nD τ sig) → Buf (Elt Ideal) ℓ)

/-- The weight operand as the region finds it. -/
theorem V_weight (c : Dev nD) : (V m c main_v4 : S1024x1024.Idx → EReal)
    = transpose S1024x1024 [1, 0] (shapeCast S1024x1024 (extractStridedSlice S1x1024x1024 ![0, 0, 0]
        (m ((c : Thread nD τ).loc main_arg2)) slices_S8x1024x1024_S1x1024x1024_0_0_0) shapeCasts_S1x1024x1024_S1024x1024)
        transposes_S1024x1024_S1024x1024_1_0 := by
  dsimp only [V, hostOps0]
  after_results
  rfl

/-- The bias operand as the region finds it. -/
theorem V_bias (c : Dev nD) : (V m c main_v5 : S1x1024.Idx → EReal)
    = shapeCast S1x1024 (shapeCast S1024 (extractStridedSlice S1x1024 ![0, 0] (m ((c : Thread nD τ).loc main_arg3))
        slices_S8x1024_S1x1024_0_0) shapeCasts_S1x1024_S1024) shapeCasts_S1024_S1x1024 := by
  dsimp only [V, hostOps0]
  after_results
  rfl

/-- The weight operand at `(k, o)` is `W[0, o, k]` of the launch contents. -/
theorem weight_apply (c : Dev nD) (k o : Fin 1024) :
    (V m c main_v4 : S1024x1024.Idx → EReal) (ix2 k o) = m ((c : Thread nD τ).loc main_arg2) (ix3 (0 : Fin 8) o k) :=
  (congrFun (V_weight m c) (ix2 k o)).trans (transposed_slice_apply _ _ _ _ k o)

/-- The bias operand at `(0, o)` is `b[0, o]` of the launch contents. -/
theorem bias_row_apply (c : Dev nD) (o : Fin 1024) :
    (V m c main_v5 : S1x1024.Idx → EReal) (ix2 (0 : Fin 1) o) = m ((c : Thread nD τ).loc main_arg3) (ix2 (0 : Fin 8) o) :=
  (congrFun (V_bias m c) (ix2 (0 : Fin 1) o)).trans (row_slice_apply _ _ _ _ o)

end Cert.KernelIdeal.Dense

end
-- ==== Proof.Linear.lean ====
/-
  The function both programs compute, written once over the three argument arrays that matter.

  With `x : [65536, 1024]`, `W : [8, 1024, 1024]` (adaptor, output feature, input feature) and `b : [8, 1024]`, the
  result at row `n` and output feature `o` is the dense layer of adaptor `0`:
      `∑ k, x[n, k] · W[0, o, k]  +  b[0, o]`
  on the extended reals, `k` running over the 1024 input features. The routing vectors do not enter.
-/
import Idealize.ShloMosaic.Lib.ValueIdx
import Idealize.ShloMosaic.PureOps.Ideal

noncomputable section

open scoped BigOperators

namespace Cert.Linear

open Idealize.ShloMosaic Idealize.ShloMosaic.ValueIdx

/-- Adaptor 0's dense layer at row `n`, output feature `o`. -/
def dense0At (x : (⟨2, ![65536, 1024]⟩ : Shape).Idx → EReal) (W : (⟨3, ![8, 1024, 1024]⟩ : Shape).Idx → EReal)
    (b : (⟨2, ![8, 1024]⟩ : Shape).Idx → EReal) (n : Fin 65536) (o : Fin 1024) : EReal :=
  (∑ k : Fin 1024, x (ix2 n k) * W (ix3 (0 : Fin 8) o k)) + b (ix2 (0 : Fin 8) o)

/-- Adaptor 0's dense layer as one array. -/
def dense0 (x : (⟨2, ![65536, 1024]⟩ : Shape).Idx → EReal) (W : (⟨3, ![8, 1024, 1024]⟩ : Shape).Idx → EReal)
    (b : (⟨2, ![8, 1024]⟩ : Shape).Idx → EReal) : (⟨2, ![65536, 1024]⟩ : Shape).Idx → EReal :=
  fun i => dense0At x W b (i 0) (i 1)

theorem dense0_ix2 (x : (⟨2, ![65536, 1024]⟩ : Shape).Idx → EReal) (W : (⟨3, ![8, 1024, 1024]⟩ : Shape).Idx → EReal)
    (b : (⟨2, ![8, 1024]⟩ : Shape).Idx → EReal) (n : Fin 65536) (o : Fin 1024) :
    dense0 x W b (ix2 n o) = dense0At x W b n o := rfl

end Cert.Linear

end
-- ==== Proof.KernelDense.lean ====
/-
  The kernel's result array is adaptor 0's dense layer.

  The grid has 128 points; point `t` reads rows `512·t … 512·t + 511` of `x`, the whole transposed weight and the whole
  bias row, and writes the same rows of the result. So what point `t` writes is the block `t` of the dense layer
  (the block's rows are global rows `512·t + r`, and `Wt[k, o] = W[0, o, k]`, `brow[0, o] = b[0, o]`), and the 128
  blocks tile the 65536 rows: row `n` lies in block `n / 512`.
-/
import proofs.«149108_j240518168737_1_alg».proof.Proof.Gen.KernelIdeal.Value
import proofs.«149108_j240518168737_1_alg».proof.Proof.Body
import proofs.«149108_j240518168737_1_alg».proof.Proof.Prefix
import proofs.«149108_j240518168737_1_alg».proof.Proof.Linear

noncomputable section

open scoped BigOperators

namespace Cert.KernelIdeal.Dense

open Cert.KernelIdeal Cert.KernelIdeal.Gen Idealize.ShloMosaic Idealize.ShloMosaic.TcCoe Idealize.SL.Sem
open Idealize.ShloMosaic.ValueIdx
open Idealize.ShloMosaic.Pipeline (Dat)

/-- One block of the dense layer from its three operands: if the block of `x` holds global rows `T·512 + r`, the
    weight operand is adaptor 0's matrix transposed and the bias operand adaptor 0's row, then the body's stored value
    at a local index is the dense layer at the corresponding global index. -/
theorem block_value (xblk : FVec Ideal S512x1024 .f32) (wt : FVec Ideal S1024x1024 .f32) (brow : FVec Ideal S1x1024 .f32)
    (x : FVec Ideal S65536x1024 .f32) (W : FVec Ideal S8x1024x1024 .f32) (b : FVec Ideal S8x1024 .f32) (T : Nat)
    (hx : ∀ (y : S512x1024.Idx) (i : S65536x1024.Idx), (i 0).val = T * 512 + (y 0).val → (i 1).val = (y 1).val → xblk y = x i)
    (hw : ∀ k o : Fin 1024, wt (ix2 k o) = W (ix3 (0 : Fin 8) o k))
    (hb : ∀ o : Fin 1024, brow (ix2 (0 : Fin 1) o) = b (ix2 (0 : Fin 8) o))
    (j : S512x1024.Idx) (i : S65536x1024.Idx) (hi0 : (i 0).val = T * 512 + (j 0).val) (hi1 : (i 1).val = (j 1).val) :
    k0_pay1 (F := Ideal) xblk wt brow j = Cert.Linear.dense0 x W b i := by
  obtain ⟨r, q, rfl⟩ : ∃ (r : Fin 512) (q : Fin 1024), j = ix2 r q := ⟨j 0, j 1, eq_ix2 j⟩
  obtain ⟨n, o, rfl⟩ : ∃ (n : Fin 65536) (o : Fin 1024), i = ix2 n o := ⟨i 0, i 1, eq_ix2 i⟩
  have hoq : o = q := Fin.ext hi1
  subst hoq
  rw [payload_apply, Cert.Linear.dense0_ix2]
  unfold Cert.Linear.dense0At
  rw [hb o]
  refine congrArg (· + b (ix2 (0 : Fin 8) o)) (Finset.sum_congr rfl fun k _ => ?_)
  rw [hx (ix2 r k) (ix2 n k) hi0 rfl, hw k o]

variable (m : (ℓ : Loc nD τ sig) → Buf (Elt Ideal) ℓ) (ρ : Dev nD → PrngReg)

/-- The printed index maps, decided over the 128 points: the `x` window and the result window sit at block row `t`,
    block column `0`; the weight and bias windows never move. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The block of `x` at point `t` holds the launch contents' rows `512·t + r`. -/
theorem x_block_read (c : Dev nD) (t : Fin cfg0.N) (y : S512x1024.Idx) (i : S65536x1024.Idx)
    (h0 : (i 0).val = t.val * 512 + (y 0).val) (h1 : (i 1).val = (y 1).val) :
    iblk m c 0 t y = m ((c : Thread nD τ).loc main_arg0) i := by
  show V m c main_arg0 (((cfg0.win 0).blk t).view.emb y) = _
  obtain ⟨e0, e1, -, -, -, -, -, -⟩ := index_facts t
  refine (congrFun (V_main_arg0 m c) _).trans (congrArg (m ((c : Thread nD τ).loc main_arg0)) (funext fun a => Fin.ext ?_))
  match a with
  | ⟨0, _⟩ =>
    show win0_0.index t (0 : Fin 2) * 512 + 1 * (y 0).val = (i 0).val
    omega
  | ⟨1, _⟩ =>
    show win0_0.index t (1 : Fin 2) * 1024 + 1 * (y 1).val = (i 1).val
    omega

/-- The weight window's block is the whole transposed weight at every point. -/
theorem weight_block_read (c : Dev nD) (t : Fin cfg0.N) (k o : Fin 1024) :
    iblk m c 1 t (ix2 k o) = m ((c : Thread nD τ).loc main_arg2) (ix3 (0 : Fin 8) o k) := by
  show V m c main_v4 (((cfg0.win 1).blk t).view.emb (ix2 k o)) = _
  obtain ⟨-, -, e2, e3, -, -, -, -⟩ := index_facts t
  have he : ((cfg0.win 1).blk t).view.emb (ix2 k o) = ix2 k o := funext fun a => Fin.ext (by
    match a with
    | ⟨0, _⟩ =>
      show win0_1.index t (0 : Fin 2) * 1024 + 1 * k.val = k.val
      omega
    | ⟨1, _⟩ =>
      show win0_1.index t (1 : Fin 2) * 1024 + 1 * o.val = o.val
      omega)
  rw [he]
  exact weight_apply m c k o

/-- The bias window's block is the whole bias row at every point. -/
theorem bias_block_read (c : Dev nD) (t : Fin cfg0.N) (o : Fin 1024) :
    iblk m c 2 t (ix2 (0 : Fin 1) o) = m ((c : Thread nD τ).loc main_arg3) (ix2 (0 : Fin 8) o) := by
  show V m c main_v5 (((cfg0.win 2).blk t).view.emb (ix2 (0 : Fin 1) o)) = _
  obtain ⟨-, -, -, -, e4, e5, -, -⟩ := index_facts t
  have he : ((cfg0.win 2).blk t).view.emb (ix2 (0 : Fin 1) o) = ix2 (0 : Fin 1) o := funext fun a => Fin.ext (by
    match a with
    | ⟨0, _⟩ =>
      show win0_2.index t (0 : Fin 2) * 1 + 1 * 0 = 0
      omega
    | ⟨1, _⟩ =>
      show win0_2.index t (1 : Fin 2) * 1024 + 1 * o.val = o.val
      omega)
  rw [he]
  exact bias_row_apply m c o

theorem origin : (![0, 0] : Fin 2 → Nat) = fun _ => 0 := funext fun a => by fin_cases a <;> rfl

/-- What point `t` writes back is block `t` of the dense layer of the launch contents. -/
theorem flushed_eq (c : Dev nD) (t : Fin cfg0.N) :
    (dats m 0 c).flushed 3 t = ((cfg0.win 3).blk t).view.read (Elt Ideal)
      (Cert.Linear.dense0 (m ((c : Thread nD τ).loc main_arg0)) (m ((c : Thread nD τ).loc main_arg2))
        (m ((c : Thread nD τ).loc main_arg3))) := by
  rw [Cert.KernelIdeal.Value.flushed3]
  unfold out0_3
  rw [View.canon_unit_zero origin]
  simp only [View.ld_unit_zero (S := S512x1024) origin, View.ld_unit_zero (S := S1024x1024) origin,
    View.ld_unit_zero (S := S1x1024) origin]
  obtain ⟨-, -, -, -, -, -, e6, e7⟩ := index_facts t
  funext j
  show k0_pay1 (F := Ideal) (iblk m c 0 t) (iblk m c 1 t) (iblk m c 2 t) j
    = Cert.Linear.dense0 (m ((c : Thread nD τ).loc main_arg0)) (m ((c : Thread nD τ).loc main_arg2))
        (m ((c : Thread nD τ).loc main_arg3)) (((cfg0.win 3).blk t).view.emb j)
  refine block_value (iblk m c 0 t) (iblk m c 1 t) (iblk m c 2 t) (m ((c : Thread nD τ).loc main_arg0))
    (m ((c : Thread nD τ).loc main_arg2)) (m ((c : Thread nD τ).loc main_arg3)) t.val
    (fun y i h0 h1 => x_block_read m c t y i h0 h1) (fun k o => weight_block_read m c t k o)
    (fun o => bias_block_read m c t o) j (((cfg0.win 3).blk t).view.emb j) ?_ ?_
  · show win0_3.index t (0 : Fin 2) * 512 + 1 * (j 0).val = t.val * 512 + (j 0).val
    omega
  · show win0_3.index t (1 : Fin 2) * 1024 + 1 * (j 1).val = (j 1).val
    omega

/-- An index of the result array lies in point `t`'s block iff each coordinate lies in the block's range. -/
theorem mem_block (t : Fin cfg0.N) (i : S65536x1024.Idx) :
    i ∈ ((cfg0.win 3).blk t).view.set ↔ ∀ a : Fin 2, win0_3.index t a * S512x1024.size a ≤ (i a).val
      ∧ (i a).val < win0_3.index t a * S512x1024.size a + S512x1024.size a := by
  show i ∈ ((View.whole main_v6).slice (win0_3.rect t)).set ↔ _
  rw [View.set_slice_whole, Rect.mem_set_unit]
  exact Iff.rfl

/-- The 128 blocks tile the result array: row `n` is in the block of point `n / 512`. -/
theorem cover (i : S65536x1024.Idx) :
    ∃ t : Fin cfg0.N, (cfg0.win 3).flush t = true ∧ i ∈ ((cfg0.win 3).blk t).view.set := by
  have hi0 : (i 0).val < 65536 := (i 0).isLt
  have hi1 : (i 1).val < 1024 := (i 1).isLt
  have hN : grid0.N = 128 := N_0
  obtain ⟨t, ht⟩ : ∃ t : Fin cfg0.N, t.val = (i 0).val / 512 :=
    ⟨⟨(i 0).val / 512, by show (i 0).val / 512 < grid0.N; omega⟩, rfl⟩
  obtain ⟨-, -, -, -, -, -, e6, e7⟩ := index_facts t
  refine ⟨t, flush0_3 t, ?_⟩
  rw [mem_block]
  intro a
  match a with
  | ⟨0, _⟩ =>
    show win0_3.index t (0 : Fin 2) * 512 ≤ (i 0).val ∧ (i 0).val < win0_3.index t (0 : Fin 2) * 512 + 512
    omega
  | ⟨1, _⟩ =>
    show win0_3.index t (1 : Fin 2) * 1024 ≤ (i 1).val ∧ (i 1).val < win0_3.index t (1 : Fin 2) * 1024 + 1024
    omega

/-- The result array after the run is the dense layer of the launch contents. -/
theorem final (c : Dev nD) : (dats m 0 c).arrAt 3 cfg0.N
    = Cert.Linear.dense0 (m ((c : Thread nD τ).loc main_arg0)) (m ((c : Thread nD τ).loc main_arg2))
        (m ((c : Thread nD τ).loc main_arg3)) :=
  (dats m 0 c).arrAt_eq_of_cover 3 _ (fun t _ => flushed_eq m c t) cover

/-- The kernel's run: the result array ends at the dense layer of the arguments, the arguments unchanged. -/
theorem run : θ_run defs (onTc (τ := τ) (main (F := Ideal))) ⟨m, fun _ => 0, ρ⟩ fun r => ∀ c : Dev nD,
      r.2.mem ((c : Thread nD τ).loc main_v6)
        = Cert.Linear.dense0 (m ((c : Thread nD τ).loc main_arg0)) (m ((c : Thread nD τ).loc main_arg2))
            (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.KernelIdeal.Dense

end
-- ==== Proof.ReferenceDense.lean ====
/-
  The reference, read one operation at a time, is adaptor 0's dense layer.

  The reference slices adaptor 0 out of `W` and `b`, contracts `x`'s second axis with the slice's SECOND axis
  (`einsum "nd,od->no"`: the weight is used as stored, output feature first), and adds the bias row broadcast down
  the rows. At the ideal values the contraction is the plain sum `∑ k, x[n, k] · W[0, o, k]`; what is left is to
  follow each index through the slices, the two reshapes and the two broadcasts.
-/
import proofs.«149108_j240518168737_1_alg».proof.Proof.Gen.ReferenceIdeal.Read
import proofs.«149108_j240518168737_1_alg».proof.Proof.Linear

noncomputable section

open scoped BigOperators

namespace Cert.ReferenceIdeal.Dense

open Cert.ReferenceIdeal Cert.ReferenceIdeal.Read Idealize.ShloMosaic Idealize.ShloMosaic.ValueIdx

/-- The left factor of the contraction at `(n, o)`, position `k`, is `x[n, k]`. -/
theorem left_index (n : Fin 65536) (o k : Fin 1024) : lidx_main_v2 (ix2 n o) k = ix2 n k := by
  funext a
  match a with
  | ⟨0, _⟩ => rfl
  | ⟨1, _⟩ => rfl

/-- The right factor, followed back through the reshape and the slice, is `W[0, o, k]`: the flat position
    `o · 1024 + k` of the `[1024, 1024]` slice splits back into `(o, k)`. -/
theorem weight_index (n : Fin 65536) (o k : Fin 1024) :
    idx_main_v0 (idx_main_v1 (ridx_main_v2 (ix2 n o) k)) = ix3 (0 : Fin 8) o k := by
  funext a
  refine Fin.ext ?_
  match a with
  | ⟨0, _⟩ => rfl
  | ⟨1, _⟩ =>
    show (o.val * 1024 + k.val) / 1024 % 1024 = o.val
    have ho := o.isLt
    have hk := k.isLt
    omega
  | ⟨2, _⟩ =>
    show (o.val * 1024 + k.val) % 1024 = k.val
    have hk := k.isLt
    omega

/-- The bias term at `(n, o)`, followed back through the two broadcasts, the reshape and the slice, is `b[0, o]`. -/
theorem bias_index (n : Fin 65536) (o : Fin 1024) :
    idx_main_v3 (idx_main_v4 (idx_main_v5 (idx_main_v6 (ix2 n o)))) = ix2 (0 : Fin 8) o := by
  funext a
  refine Fin.ext ?_
  match a with
  | ⟨0, _⟩ => rfl
  | ⟨1, _⟩ =>
    show o.val % 1024 = o.val
    have ho := o.isLt
    omega

/-- The reference's result, as the last stage of its run, is the dense layer of adaptor 0. -/
theorem reference_eq (x : FVec Ideal S65536x1024 .f32) (W : FVec Ideal S8x1024x1024 .f32) (b : FVec Ideal S8x1024 .f32) :
    val_main_v7 (F := Ideal) x W b = Cert.Linear.dense0 x W b := by
  funext i
  obtain ⟨n, o, rfl⟩ : ∃ (n : Fin 65536) (o : Fin 1024), i = ix2 n o := ⟨i 0, i 1, eq_ix2 i⟩
  rw [val_main_v7_apply, val_main_v2_apply, val_main_v6_apply, val_main_v5_apply, val_main_v4_apply, val_main_v3_apply,
    bias_index]
  simp only [val_main_v1_apply, val_main_v0_apply, left_index, weight_index, Ideal.addf_def]
  rfl

end Cert.ReferenceIdeal.Dense

end
-- ==== Proof.lean ====
/-
  The kernel computes `out = x · W[0]ᵀ + b[0]` over `x : f32[65536, 1024]`, `W : f32[8, 1024, 1024]`, `b : f32[8, 1024]`:
  the host slices adaptor 0 out of `W` and `b` and transposes the matrix, and one pallas_call over 128 blocks of 512
  rows multiplies each block of `x` (narrowed to bf16) by the whole transposed weight (narrowed to bf16) into a zero f32
  accumulator and adds the bias row. The reference is `einsum("nd,od->no", x, W[0]) + b[0]`.

  On the extended reals narrowing is the identity and both products are plain sums over the 1024 input features, so
  both programs end with
      `out[n, o] = ∑ k, x[n, k] · W[0, o, k]  +  b[0, o]`
  (Proof/Linear.lean). The kernel side: the body's stored value at one element (Proof/Body.lean), the two operands
  the host prepares (Proof/Prefix.lean), and the blocks assembled into the array (Proof/KernelDense.lean). The
  reference side: its operations read at an index (Proof/ReferenceDense.lean). No law beyond rewriting the sums'
  terms is used, so the inputs' finiteness is never opened. The idealization rewrote nothing, so `preserves` is trivial.
-/
import proofs.«149108_j240518168737_1_alg».proof.Defs
import proofs.«149108_j240518168737_1_alg».proof.Proof.Gen.Kernel
import proofs.«149108_j240518168737_1_alg».proof.Proof.Gen.Kernel.Skeleton
import proofs.«149108_j240518168737_1_alg».proof.Proof.Gen.Kernel.Launch
import proofs.«149108_j240518168737_1_alg».proof.Proof.Gen.Kernel.Points
import proofs.«149108_j240518168737_1_alg».proof.Proof.Gen.Kernel.Frame
import proofs.«149108_j240518168737_1_alg».proof.Proof.Gen.KernelIdeal
import proofs.«149108_j240518168737_1_alg».proof.Proof.Gen.KernelIdeal.Skeleton
import proofs.«149108_j240518168737_1_alg».proof.Proof.Gen.KernelIdeal.Launch
import proofs.«149108_j240518168737_1_alg».proof.Proof.Gen.KernelIdeal.Points
import proofs.«149108_j240518168737_1_alg».proof.Proof.Gen.KernelIdeal.Frame
import proofs.«149108_j240518168737_1_alg».proof.Proof.Gen.ReferenceIdeal
import proofs.«149108_j240518168737_1_alg».proof.Proof.Gen.Pre_finite_inputs
import proofs.«149108_j240518168737_1_alg».proof.Proof.Gen.KernelIdeal.Value
import proofs.«149108_j240518168737_1_alg».proof.Proof.Gen.ReferenceIdeal.Run
import proofs.«149108_j240518168737_1_alg».proof.Proof.Gen.ReferenceIdeal.Read
import proofs.«149108_j240518168737_1_alg».proof.Proof.KernelDense
import proofs.«149108_j240518168737_1_alg».proof.Proof.ReferenceDense
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read at the ideal values. -/
theorem frame_kernel_ideal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments both programs end with adaptor 0's dense layer of them. -/
theorem algebraic : Cert.algebraic_KernelIdeal_ReferenceIdeal := by
  intro m ρ m' ρ' _ hagree
  refine ⟨_, Cert.KernelIdeal.Dense.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.2.1, (hagree c).2.2.2]
  exact (Cert.ReferenceIdeal.Read.val_main_v7_eq _ _ _).trans (Cert.ReferenceIdeal.Dense.reference_eq _ _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
